-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256 .f32) (main_arg6 : FVec F S256x2 .f32) (main_arg7 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S256 .f32) (main_arg4 : FVec F S256x256 .f32) (main_arg5 : FVec F S256 .f32) (main_arg6 : FVec F S256x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S50000x256 : Shape := ⟨2, ![50000, 256]⟩
abbrev S1000x128 : Shape := ⟨2, ![1000, 128]⟩
abbrev S1000x256 : Shape := ⟨2, ![1000, 256]⟩
abbrev S600000x256 : Shape := ⟨2, ![600000, 256]⟩
abbrev S1x256 : Shape := ⟨2, ![1, 256]⟩
abbrev S1000x1 : Shape := ⟨2, ![1000, 1]⟩
abbrev S1x2 : Shape := ⟨2, ![1, 2]⟩
abbrev S50000x2 : Shape := ⟨2, ![50000, 2]⟩
abbrev S1000x2 : Shape := ⟨2, ![1000, 2]⟩

abbrev nBuf : Space → Nat
  | .hbm => 82
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S600000, .f32⟩
  | .hbm, ⟨43, _⟩ => ⟨S600000x1, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S600000x256, .f32⟩
  | .hbm, ⟨55, _⟩ => ⟨S600000x256, .f32⟩
  | .hbm, ⟨56, _⟩ => ⟨S_, .f32⟩
  | .hbm, ⟨57, _⟩ => ⟨S50000x256, .f32⟩
  | .hbm, ⟨58, _⟩ => ⟨S600000x1, .i32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x256, .f32⟩
  | .hbm, ⟨72, _⟩ => ⟨S600000x256, .f32⟩
  | .hbm, ⟨73, _⟩ => ⟨S600000x256, .f32⟩
  | .hbm, ⟨74, _⟩ => ⟨S_, .f32⟩
  | .hbm, ⟨75, _⟩ => ⟨S50000x256, .f32⟩
  | .hbm, ⟨76, _⟩ => ⟨S600000x1, .i32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S1x2, .f32⟩
  | .hbm, ⟨81, _⟩ => ⟨S50000x2, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x1, .f32⟩
  | .local _ .vmem, ⟨10, _⟩ => ⟨S1000x1, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S256x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x1, .f32⟩
  | .local _ .vmem, ⟨24, _⟩ => ⟨S1000x1, .f32⟩
  | .local _ .vmem, ⟨25, _⟩ => ⟨S1x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S256x2, .f32⟩
  | .local _ .vmem, ⟨31, _⟩ => ⟨S1x2, .f32⟩
  | .local _ .vmem, ⟨32, _⟩ => ⟨S1000x2, .f32⟩
  | .local _ .vmem, ⟨33, _⟩ => ⟨S1000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S600000_S600000x1 : S600000.ShapeCasts S600000x1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  shapeCasts_S256_S1x256 : S256.ShapeCasts S1x256
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  shapeCasts_S2_S1x2 : S2.ShapeCasts S1x2
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S1000x128_S128x256_S1000x256_1_0_0_1_n_n_wf : DotDims.WF S1000x128 S128x256 S1000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S1000x256_S256x256_S1000x256_1_0_0_1_n_n_wf : DotDims.WF S1000x256 S256x256 S1000x256 [1] [0] [0] [1] [] []
  dot_S1000x256_S256x2_S1000x2_1_0_0_1_n_n_wf : DotDims.WF S1000x256 S256x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S50000x256.size a
  hwx1_4 : ∀ i : grid1.Coords, EltTy.bits .f32 = 32 ∨ (Rect.block (s := S50000x256) S1000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S50000x256.size a
  hwx3_1 : ∀ i : grid3.Coords, EltTy.bits .f32 = 32 ∨ (Rect.block (s := S50000x256) S1000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S50000x1.size a
  hwx3_2 : ∀ i : grid3.Coords, EltTy.bits .f32 = 32 ∨ (Rect.block (s := S50000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x256.size a ≤ S50000x256.size a
  hwx3_4 : ∀ i : grid3.Coords, EltTy.bits .f32 = 32 ∨ (Rect.block (s := S50000x256) S1000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x2.size a ≤ S256x2.size a
  hwx4_1 : ∀ i : grid4.Coords, EltTy.bits .f32 = 32 ∨ (Rect.block (s := S256x2) S256x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x2.size a ≤ S50000x2.size a
  hwx4_3 : ∀ i : grid4.Coords, EltTy.bits .f32 = 32 ∨ (Rect.block (s := S50000x2) S1000x2.size (cc4_transform_3 i) (hinb4_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x2_S1000x2_1_0_0_1_n_n : DotDims S1000x256 S256x2 S1000x2 where
  lhsContracting := [1]
  rhsContracting := [0]
  lhsNonContracting := [0]
  rhsNonContracting := [1]
  lhsBatch := []
  rhsBatch := []
  wf := dot_S1000x256_S256x2_S1000x2_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x256 : Shape := ⟨2, ![50000, 256]⟩
abbrev S600000x256 : Shape := ⟨2, ![600000, 256]⟩
abbrev S50000x1 : Shape := ⟨2, ![50000, 1]⟩
abbrev S1x256 : Shape := ⟨2, ![1, 256]⟩
abbrev S50000x2 : Shape := ⟨2, ![50000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x256, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000, .f32⟩
  | .hbm, ⟨41, _⟩ => ⟨S600000, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x256, .f32⟩
  | .hbm, ⟨52, _⟩ => ⟨S600000x256, .f32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000, .f32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000, .f32⟩
  | .hbm, ⟨88, _⟩ => ⟨S600000, .f32⟩
  | .hbm, ⟨89, _⟩ => ⟨S600000x1, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x256, .f32⟩
  | .hbm, ⟨99, _⟩ => ⟨S600000x256, .f32⟩
  | .hbm, ⟨100, _⟩ => ⟨S600000x256, .f32⟩
  | .hbm, ⟨101, _⟩ => ⟨S_, .f32⟩
  | .hbm, ⟨102, _⟩ => ⟨S50000x256, .f32⟩
  | .hbm, ⟨103, _⟩ => ⟨S600000x1, .i32⟩
  | .hbm, ⟨104, _⟩ => ⟨S50000x256, .f32⟩
  | .hbm, ⟨105, _⟩ => ⟨S50000, .f32⟩
  | .hbm, ⟨106, _⟩ => ⟨S50000x1, .f32⟩
  | .hbm, ⟨107, _⟩ => ⟨S50000x256, .f32⟩
  | .hbm, ⟨108, _⟩ => ⟨S50000x256, .f32⟩
  | .hbm, ⟨109, _⟩ => ⟨S50000x256, .f32⟩
  | .hbm, ⟨110, _⟩ => ⟨S1x256, .f32⟩
  | .hbm, ⟨111, _⟩ => ⟨S50000x256, .f32⟩
  | .hbm, ⟨112, _⟩ => ⟨S50000x256, .f32⟩
  | .hbm, ⟨113, _⟩ => ⟨S_, .f32⟩
  | .hbm, ⟨114, _⟩ => ⟨S50000x256, .f32⟩
  | .hbm, ⟨115, _⟩ => ⟨S50000x256, .f32⟩
  | .hbm, ⟨116, _⟩ => ⟨S50000x2, .f32⟩
  | .hbm, ⟨117, _⟩ => ⟨S1x2, .f32⟩
  | .hbm, ⟨118, _⟩ => ⟨S50000x2, .f32⟩
  | .hbm, ⟨119, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000_S600000x1_S600000_n_0_n_n_0_1_1_wf : GatherDims.WF S50000 S600000x1 S600000 [] [0] [] [0] [] 1 ![1]
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.RefImports.lean ====
/- The reference's run and its stages read at an index, brought in for the modules that compare the two programs. -/
import proofs.«106007_j74491912782367_1_alg».proof.Proof.Gen.ReferenceIdeal.Run
import proofs.«106007_j74491912782367_1_alg».proof.Proof.Gen.ReferenceIdeal.Read
-- ==== Proof.Aggregate.lean ====
/-
  The neighbour aggregation both layers share, and what the host stretches between the regions compute.

  `aggregate H src dst nrm`: gather row src(e) of the feature array H for every edge e (a negative index wrapped
  by the number of nodes), scale it by the edge's normalisation nrm(e), and add it into row dst(e) of a zero array.
  The stretch before each layer's closing region computes exactly this from the feature array the preceding region
  left, and reshapes the layer's bias vector to a row; the stretch before the read-out reshapes its bias. Every other
  buffer passes through a stretch untouched. The reference's aggregation stages are the same function of its own
  feature array.
-/
import proofs.«106007_j74491912782367_1_alg».proof.Proof.Gen.KernelIdeal.Frame
import proofs.«106007_j74491912782367_1_alg».proof.Proof.RefImports
import Idealize.ShloMosaic.Lib.StableHlo.Run

set_option maxRecDepth 16384

noncomputable section

namespace Cert.KernelIdeal.Aggregate

open Cert.KernelIdeal Cert.KernelIdeal.Gen Idealize.ShloMosaic Idealize.ShloMosaic.TcCoe Idealize.SL.Sem Idealize.ShloMosaic.StableHlo

/-- Rows of `H` gathered along the edges' sources, scaled edge by edge, summed into the edges' destinations. -/
def aggregate (H : (⟨S50000x256, .f32⟩ : BufTy).Contents (Elt Ideal)) (src dst : (⟨S600000, .i32⟩ : BufTy).Contents (Elt Ideal))
    (nrm : (⟨S600000x1, .f32⟩ : BufTy).Contents (Elt Ideal)) : (⟨S50000x256, .f32⟩ : BufTy).Contents (Elt Ideal) :=
  Host.scatterAdd scatter_S50000x256_S600000x1_S600000x256_1_0_0_1
    (broadcastInDim S50000x256 ![] bcast_S_S50000x256 (constant (F := Ideal) S_ .f32 0x00000000#32))
    (broadcastInDim S600000x1 ![0] bcast_S600000_S600000x1_0 dst)
    (mulf (Host.gather gather_S50000x256_S600000x1_S600000x256_1_0_n_n_0_1_1256 H
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      (broadcastInDim S600000x256 ![0, 1] bcast_S600000x1_S600000x256_0_1 nrm))

variable (Wv : Valuation τ sig (Elt Ideal))

/-! ## The stretch before the first layer's closing region -/

theorem first_agg : StableHlo.after hostOps1 Wv (Proc.devRef .tc main_v41)
    = aggregate (Wv (Proc.devRef .tc main_v29)) (Wv (Proc.devRef .tc main_v1)) (Wv (Proc.devRef .tc main_v3)) (Wv (Proc.devRef .tc main_v28)) := by
  after_results_simp <;> rfl

theorem first_bias : StableHlo.after hostOps1 Wv (Proc.devRef .tc main_v42)
    = shapeCast S1x256 (Wv (Proc.devRef .tc main_arg3)) shapeCasts_S256_S1x256 := by
  after_results_simp <;> rfl

theorem first_keep_feat : StableHlo.after hostOps1 Wv (Proc.devRef .tc main_v29) = Wv (Proc.devRef .tc main_v29) := by
  after_results_simp <;> rfl

theorem first_keep_deg : StableHlo.after hostOps1 Wv (Proc.devRef .tc main_v12) = Wv (Proc.devRef .tc main_v12) := by
  after_results_simp <;> rfl

/-! ## The stretch before the second layer's closing region -/

theorem second_agg : StableHlo.after hostOps3 Wv (Proc.devRef .tc main_v56)
    = aggregate (Wv (Proc.devRef .tc main_v44)) (Wv (Proc.devRef .tc main_v1)) (Wv (Proc.devRef .tc main_v3)) (Wv (Proc.devRef .tc main_v28)) := by
  after_results_simp <;> rfl

theorem second_bias : StableHlo.after hostOps3 Wv (Proc.devRef .tc main_v57)
    = shapeCast S1x256 (Wv (Proc.devRef .tc main_arg5)) shapeCasts_S256_S1x256 := by
  after_results_simp <;> rfl

theorem second_keep_feat : StableHlo.after hostOps3 Wv (Proc.devRef .tc main_v44) = Wv (Proc.devRef .tc main_v44) := by
  after_results_simp <;> rfl

theorem second_keep_deg : StableHlo.after hostOps3 Wv (Proc.devRef .tc main_v12) = Wv (Proc.devRef .tc main_v12) := by
  after_results_simp <;> rfl

/-! ## The stretch before the read-out -/

theorem last_bias : StableHlo.after hostOps4 Wv (Proc.devRef .tc main_v59)
    = shapeCast S1x2 (Wv (Proc.devRef .tc main_arg7)) shapeCasts_S2_S1x2 := by
  after_results_simp <;> rfl

theorem last_keep_feat : StableHlo.after hostOps4 Wv (Proc.devRef .tc main_v58) = Wv (Proc.devRef .tc main_v58) := by
  after_results_simp <;> rfl

theorem last_keep_weight : StableHlo.after hostOps4 Wv (Proc.devRef .tc main_arg6) = Wv (Proc.devRef .tc main_arg6) := by
  after_results_simp <;> rfl

/-! ## The reference's two aggregation stages are the same function -/

open Cert.ReferenceIdeal.Read

theorem ref_first (x0 : (⟨S50000x128, .f32⟩ : BufTy).Contents (Elt Ideal)) (x1 : (⟨S2x600000, .i32⟩ : BufTy).Contents (Elt Ideal))
    (x2 : (⟨S128x256, .f32⟩ : BufTy).Contents (Elt Ideal)) :
    val_main_v39 (F := Ideal) x0 x1 x2
      = aggregate (val_main_v11 (F := Ideal) x0 x2) (val_main_v1 (F := Ideal) x1) (val_main_v3 (F := Ideal) x1) (val_main_v27 (F := Ideal) x1) := rfl

theorem ref_second (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) :
    val_main_v77 (F := Ideal) x0 x1 x2 x3 x4
      = aggregate (val_main_v49 (F := Ideal) x0 x1 x2 x3 x4) (val_main_v1 (F := Ideal) x1) (val_main_v3 (F := Ideal) x1) (val_main_v27 (F := Ideal) x1) := rfl

end Cert.KernelIdeal.Aggregate

end
-- ==== Proof.Layer.lean ====
/-
  The three array functions a two-layer graph convolution is made of, entry by entry over the extended reals.

  * `dense x w`: the plain product of an [M × K] array by a [K × N] array; entry (p, q) is the sum over k of
    x (p, k) · w (k, q).
  * `selfLoop agg h d b`: one convolution layer's closing step. Given the neighbours' aggregate `agg`, the
    transformed features `h`, the column `d` of inverse degrees (one per node) and the bias row `b`,
    entry (p, q) is max (agg (p, q) + h (p, q) · d (p) + b (q), 0): the self-loop term scaled by the node's
    inverse degree, the bias, and the rectifier.
  * `affine h w b`: the final linear read-out, (h · w) (p, q) + b (q).
-/
import Idealize.ShloMosaic.PureOps.Ideal
import Idealize.ShloMosaic.Lib.ValueIdx

noncomputable section

namespace Cert.Layer

open Idealize.ShloMosaic Idealize.ShloMosaic.ValueIdx

/-- Entry (p, q) of the product of an [M × K] array by a [K × N] array. -/
def dense {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem dense_apply {M K N : ℕ} (x : (⟨2, ![M, K]⟩ : Shape).Idx → EReal) (w : (⟨2, ![K, N]⟩ : Shape).Idx → EReal)
    (p : Fin M) (q : Fin N) : dense x w (ix2 p q) = ∑ k : Fin K, x (ix2 p k) * w (ix2 k q) := rfl

/-- A layer's closing step: aggregate plus the node's own features scaled by its inverse degree, plus the bias,
    rectified. -/
def selfLoop {M N : ℕ} (agg h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => max (agg i + h i * d (ix2 (i 0) (0 : Fin 1)) + b (ix2 (0 : Fin 1) (i 1))) (Ideal.ofBits .f32 0x00000000#32)

theorem selfLoop_apply {M N : ℕ} (agg h : (⟨2, ![M, N]⟩ : Shape).Idx → EReal) (d : (⟨2, ![M, 1]⟩ : Shape).Idx → EReal)
    (b : (⟨2, ![1, N]⟩ : Shape).Idx → EReal) (p : Fin M) (q : Fin N) :
    selfLoop agg h d b (ix2 p q)
      = max (agg (ix2 p q) + h (ix2 p q) * d (ix2 p (0 : Fin 1)) + b (ix2 (0 : Fin 1) q)) (Ideal.ofBits .f32 0x00000000#32) := rfl

/-- The linear read-out: a product plus a bias row. -/
def affine {M K N : ℕ} (h : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => dense h w i + b (ix2 (0 : Fin 1) (i 1))

theorem affine_apply {M K N : ℕ} (h : (⟨2, ![M, K]⟩ : Shape).Idx → EReal) (w : (⟨2, ![K, N]⟩ : Shape).Idx → EReal)
    (b : (⟨2, ![1, N]⟩ : Shape).Idx → EReal) (p : Fin M) (q : Fin N) :
    affine h w b (ix2 p q) = (∑ k : Fin K, h (ix2 p k) * w (ix2 k q)) + b (ix2 (0 : Fin 1) q) := rfl

end Cert.Layer

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Product0.lean ====
/-
  The first layer's feature transform. The grid has 50 points; point t takes rows 1000·t … 1000·t + 999 of the
  node features (a [1000 × 128] block), the whole [128 × 256] weight array, and writes the block's product
  into rows 1000·t … of the result. A change of float format is the identity over the extended reals and the product
  accumulates into zero, so each block is the plain product of its rows; the 50 blocks tile the [50000 × 256] result,
  which is therefore the plain product of the two whole arrays.
-/
import proofs.«106007_j74491912782367_1_alg».proof.Proof.Gen.KernelIdeal.Frame
import proofs.«106007_j74491912782367_1_alg».proof.Proof.Layer
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-- One block's product at entry (p, q): the format changes are the identity and the accumulator is zero, so the
    entry is the sum over the contraction index of row entry times column entry. -/
theorem pay_apply (x0 : Vec Ideal S1000x128 .f32) (x1 : Vec Ideal S128x256 .f32) (p : Fin 1000) (q : Fin 256) :
    k0_pay1 x0 x1 (ix2 p q) = ∑ kk : Fin 128, x0 (ix2 p kk) * x1 (ix2 kk q) := by
  unfold k0_pay1
  exact Cert.LibDense.matmul_zero_apply (M := 1000) (K := 128) (N := 256) dot_S1000x128_S128x256_S1000x256_1_0_0_1_n_n none
    rfl rfl rfl rfl rfl rfl (truncf .bf16 x0 bitsLt_bf16_f32) (truncf .bf16 x1 bitsLt_bf16_f32) p q

/-- The block indices at grid point t: the feature rows and the result rows are at row block t, column block 0; the
    weight array is at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point t's feature block is the feature array's entry at the result block's row p, column k. -/
theorem rows_read (c : Dev nD) (t : Fin cfg0.N) (p : Fin 1000) (q : Fin 256) (k : Fin 128) :
    iblk0 V c 0 t (ix2 p k) = V c main_arg0 (ix2 ((((cfg0.win 2).blk t).view.emb (ix2 p q)) 0) k) := by
  obtain ⟨e0, e1, e2, e3, e4, e5⟩ := idx_facts t
  show V c main_arg0 (((cfg0.win 0).blk t).view.emb (ix2 p k)) = V c main_arg0 (ix2 ((((cfg0.win 2).blk t).view.emb (ix2 p q)) 0) k)
  refine congrArg (V c main_arg0) ?_
  funext a; apply Fin.ext
  match a with
  | ⟨0, _⟩ => show win0_0.index t (0 : Fin 2) * 1000 + 1 * p.val = win0_2.index t (0 : Fin 2) * 1000 + 1 * p.val; omega
  | ⟨1, _⟩ => show win0_0.index t (1 : Fin 2) * 128 + 1 * k.val = k.val; omega

/-- Entry (k, q) of point t's weight block is the weight array's entry at row k and the result block's column q. -/
theorem weights_read (c : Dev nD) (t : Fin cfg0.N) (p : Fin 1000) (q : Fin 256) (k : Fin 128) :
    iblk0 V c 1 t (ix2 k q) = V c main_arg2 (ix2 k ((((cfg0.win 2).blk t).view.emb (ix2 p q)) 1)) := by
  obtain ⟨e0, e1, e2, e3, e4, e5⟩ := idx_facts t
  show V c main_arg2 (((cfg0.win 1).blk t).view.emb (ix2 k q)) = V c main_arg2 (ix2 k ((((cfg0.win 2).blk t).view.emb (ix2 p q)) 1))
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 256 + 1 * q.val = win0_2.index t (1 : Fin 2) * 256 + 1 * q.val; omega

/-- What point t writes back is block t of the product of the two whole arrays. -/
theorem flushed_eq (c : Dev nD) (t : Fin cfg0.N) :
    (dat0 V c).flushed 2 t = ((cfg0.win 2).blk t).view.read (Elt Ideal)
      (Cert.Layer.dense (M := 50000) (K := 128) (N := 256) (V c main_arg0) (V c main_arg2)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x256) hz]
  funext j
  obtain ⟨p, q, rfl⟩ : ∃ (p : Fin 1000) (q : Fin 256), j = ix2 p q := ⟨j 0, j 1, eq_ix2 j⟩
  show k0_pay1 (iblk0 V c 0 t) (iblk0 V c 1 t) (ix2 p q)
    = Cert.Layer.dense (M := 50000) (K := 128) (N := 256) (V c main_arg0) (V c main_arg2) (((cfg0.win 2).blk t).view.emb (ix2 p q))
  refine (pay_apply (iblk0 V c 0 t) (iblk0 V c 1 t) p q).trans ?_
  refine Finset.sum_congr rfl fun k _ => ?_
  exact congrArg₂ (· * ·) (rows_read V c t p q k) (weights_read V c t p q k)

/-- An index of the result is in point t's block iff each coordinate is in the block's range on its axis. -/
theorem mem_blk (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v29).slice (win0_2.rect t)).set ↔ _
  rw [View.set_slice_whole, Rect.mem_set_unit]
  exact Iff.rfl

/-- The 50 row blocks tile the result: row r lies in the block of point r / 1000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 1000 < cfg0.N := by show (i 0).val / 1000 < 50; omega
  obtain ⟨e0, e1, e2, e3, e4, e5⟩ := idx_facts ⟨(i 0).val / 1000, ht⟩
  refine ⟨⟨(i 0).val / 1000, ht⟩, flush0_2 _, ?_⟩
  rw [mem_blk]
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 256 ≤ (i 1).val ∧ (i 1).val < win0_2.index ⟨(i 0).val / 1000, ht⟩ (1 : Fin 2) * 256 + 256
    rw [e5]; omega

/-- The result array after the region: the plain product of the node features by the weights. -/
theorem final (c : Dev nD) :
    (dat0 V c).arrAt 2 cfg0.N = Cert.Layer.dense (M := 50000) (K := 128) (N := 256) (V c main_arg0) (V c main_arg2) :=
  (dat0 V c).arrAt_eq_of_cover 2 _ (fun t _ => flushed_eq V c t) cover

end Cert.KernelIdeal.Product0

end
-- ==== Proof.Combine1.lean ====
/-
  The first layer's closing step. Grid point t takes rows 1000·t … 1000·t + 999 of the neighbours' aggregate, of the
  transformed features and of the inverse-degree column, and the whole bias row; entry (r, q) of its block is
  max (agg + h · d (row) + b (q), 0). Every operation is entrywise, the column is broadcast along the row and the
  bias along the column, so block t of the result is block t of one function of the four whole arrays, and the
  50 blocks tile the [50000 × 256] result.
-/
import proofs.«106007_j74491912782367_1_alg».proof.Proof.Gen.KernelIdeal.Frame
import proofs.«106007_j74491912782367_1_alg».proof.Proof.Layer
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero vector of block offsets, as a constant function. -/
theorem hz : (![0, 0] : Fin 2 → Nat) = fun _ => 0 := funext fun a => by fin_cases a <;> rfl

/-- A column [a × 1] broadcast to [a × b] reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at entry (p, q) of a block: aggregate plus features times the row's inverse degree plus the
    column's bias, rectified. -/
theorem pay_apply (x0 x1 : Vec Ideal S1000x256 .f32) (x2 : Vec Ideal S1000x1 .f32) (x3 : Vec Ideal S1x256 .f32)
    (p : Fin 1000) (q : Fin 256) :
    k1_pay1 x0 x1 x2 x3 (ix2 p q)
      = max (x0 (ix2 p q) + x1 (ix2 p q) * x2 (ix2 p (0 : Fin 1)) + x3 (ix2 (0 : Fin 1) q)) (Ideal.ofBits .f32 0x00000000#32) := by
  have h0 : shapeCast S1000x256 x0 shapeCasts_S1000x256_S1000x256 (ix2 p q) = x0 (ix2 p q) :=
    congrFun (shapeCast_self x0 _) _
  have h1 : shapeCast S1000x256 x1 shapeCasts_S1000x256_S1000x256 (ix2 p q) = x1 (ix2 p q) :=
    congrFun (shapeCast_self x1 _) _
  have hc : broadcastTo S1000x256 (shapeCast S1000x1 x2 shapeCasts_S1000x1_S1000x1) broadcasts_S1000x1_S1000x256 (ix2 p q)
      = x2 (ix2 p (0 : Fin 1)) :=
    (broadcastTo_a1_ab_apply (a := 1000) (b := 256) _ _ p q).trans (congrFun (shapeCast_self x2 _) _)
  have hr : broadcastTo S1000x256 (shapeCast S1x256 x3 shapeCasts_S1x256_S1x256) broadcasts_S1x256_S1000x256 (ix2 p q)
      = x3 (ix2 (0 : Fin 1) q) :=
    (broadcastTo_1b_ab_apply (a := 1000) (b := 256) _ _ p q).trans (congrFun (shapeCast_self x3 _) _)
  unfold k1_pay1
  show max (shapeCast S1000x256 x0 shapeCasts_S1000x256_S1000x256 (ix2 p q)
      + shapeCast S1000x256 x1 shapeCasts_S1000x256_S1000x256 (ix2 p q)
        * broadcastTo S1000x256 (shapeCast S1000x1 x2 shapeCasts_S1000x1_S1000x1) broadcasts_S1000x1_S1000x256 (ix2 p q)
      + broadcastTo S1000x256 (shapeCast S1x256 x3 shapeCasts_S1x256_S1x256) broadcasts_S1x256_S1000x256 (ix2 p q))
      (Ideal.ofBits .f32 0x00000000#32) = _
  rw [h0, h1, hc, hr]

/-- The printed index maps, decided over the grid: the three row windows sit at the output's row block, the column
    window at lane block 0, the bias row at block (0, 0); and the output's row block stays below 50. -/
theorem idx_facts : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = 0 ∧ win1_3.index t (1 : Fin 2) = win1_4.index t (1 : Fin 2)
    ∧ win1_4.index t (0 : Fin 2) ≤ 49 ∧ win1_4.index t (1 : Fin 2) = 0 :=
  (by decide +kernel : ∀ t : Fin grid1.N, _)

/-- Every row block 0 … 49 of the result is some point's. -/
theorem idx_onto : ∀ r : Fin 50, ∃ t : Fin cfg1.N, win1_4.index t = ![r.val, 0] :=
  (by decide +kernel : ∀ r : Fin 50, ∃ t : Fin grid1.N, win1_4.index t = ![r.val, 0])

/-- The aggregate's block at point t is read where the output's block lies. -/
theorem blk_agg (c : Dev nD) (t : Fin cfg1.N) (p : Fin 1000) (q : Fin 256) :
    iblk1 V c 0 t (ix2 p q) = V c main_v41 (((cfg1.win 4).blk t).view.emb (ix2 p q)) := by
  obtain ⟨e00, e01, e10, e11, e20, e21, e30, e31, e40, e41⟩ := idx_facts t
  show V c main_v41 (((cfg1.win 0).blk t).view.emb (ix2 p q)) = V c main_v41 (((cfg1.win 4).blk t).view.emb (ix2 p q))
  refine congrArg (V c main_v41) ?_
  funext a; apply Fin.ext
  match a with
  | ⟨0, _⟩ => show win1_0.index t (0 : Fin 2) * 1000 + 1 * p.val = win1_4.index t (0 : Fin 2) * 1000 + 1 * p.val; omega
  | ⟨1, _⟩ => show win1_0.index t (1 : Fin 2) * 256 + 1 * q.val = win1_4.index t (1 : Fin 2) * 256 + 1 * q.val; omega

/-- The features' block at point t is read where the output's block lies. -/
theorem blk_feat (c : Dev nD) (t : Fin cfg1.N) (p : Fin 1000) (q : Fin 256) :
    iblk1 V c 1 t (ix2 p q) = V c main_v29 (((cfg1.win 4).blk t).view.emb (ix2 p q)) := by
  obtain ⟨e00, e01, e10, e11, e20, e21, e30, e31, e40, e41⟩ := idx_facts t
  show V c main_v29 (((cfg1.win 1).blk t).view.emb (ix2 p q)) = V c main_v29 (((cfg1.win 4).blk t).view.emb (ix2 p q))
  refine congrArg (V c main_v29) ?_
  funext a; apply Fin.ext
  match a with
  | ⟨0, _⟩ => show win1_1.index t (0 : Fin 2) * 1000 + 1 * p.val = win1_4.index t (0 : Fin 2) * 1000 + 1 * p.val; omega
  | ⟨1, _⟩ => show win1_1.index t (1 : Fin 2) * 256 + 1 * q.val = win1_4.index t (1 : Fin 2) * 256 + 1 * q.val; omega

/-- The inverse-degree block at point t holds the entries of the output block's rows. -/
theorem blk_deg (c : Dev nD) (t : Fin cfg1.N) (p : Fin 1000) (q : Fin 256) :
    iblk1 V c 2 t (ix2 p (0 : Fin 1))
      = V c main_v12 (ix2 ((((cfg1.win 4).blk t).view.emb (ix2 p q)) 0) (0 : Fin 1)) := by
  obtain ⟨e00, e01, e10, e11, e20, e21, e30, e31, e40, e41⟩ := idx_facts t
  show V c main_v12 (((cfg1.win 2).blk t).view.emb (ix2 p (0 : Fin 1))) = _
  refine congrArg (V c main_v12) ?_
  funext a; apply Fin.ext
  match a with
  | ⟨0, _⟩ => show win1_2.index t (0 : Fin 2) * 1000 + 1 * p.val = win1_4.index t (0 : Fin 2) * 1000 + 1 * p.val; omega
  | ⟨1, _⟩ => show win1_2.index t (1 : Fin 2) * 1 + 1 * 0 = 0; omega

/-- The bias block at every point is the whole bias row. -/
theorem blk_bias (c : Dev nD) (t : Fin cfg1.N) (p : Fin 1000) (q : Fin 256) :
    iblk1 V c 3 t (ix2 (0 : Fin 1) q)
      = V c main_v42 (ix2 (0 : Fin 1) ((((cfg1.win 4).blk t).view.emb (ix2 p q)) 1)) := by
  obtain ⟨e00, e01, e10, e11, e20, e21, e30, e31, e40, e41⟩ := idx_facts t
  show V c main_v42 (((cfg1.win 3).blk t).view.emb (ix2 (0 : Fin 1) q)) = _
  refine congrArg (V c main_v42) ?_
  funext a; apply Fin.ext
  match a with
  | ⟨0, _⟩ => show win1_3.index t (0 : Fin 2) * 1 + 1 * 0 = 0; omega
  | ⟨1, _⟩ => show win1_3.index t (1 : Fin 2) * 256 + 1 * q.val = win1_4.index t (1 : Fin 2) * 256 + 1 * q.val; omega

/-- What point t writes back is block t of the closing step of the four whole arrays. -/
theorem flushed_eq (c : Dev nD) (t : Fin cfg1.N) :
    (dat1 V c).flushed 4 t = ((cfg1.win 4).blk t).view.read (Elt Ideal)
      (Cert.Layer.selfLoop (M := 50000) (N := 256) (V c main_v41) (V c main_v29) (V c main_v12) (V c main_v42)) := by
  show (cfg1.win 4).cut (grid1.coords t) ((dat1 V c).after 4 t) = _
  rw [after1_4]
  unfold out1_4
  rw [View.canon_unit_zero hz]
  simp only [View.ld_unit_zero (S := S1000x256) hz, View.ld_unit_zero (S := S1000x1) hz, View.ld_unit_zero (S := S1x256) hz]
  funext j
  obtain ⟨p, q, rfl⟩ : ∃ (p : Fin 1000) (q : Fin 256), j = ix2 p q := ⟨j 0, j 1, eq_ix2 j⟩
  show k1_pay1 (iblk1 V c 0 t) (iblk1 V c 1 t) (iblk1 V c 2 t) (iblk1 V c 3 t) (ix2 p q)
    = Cert.Layer.selfLoop (M := 50000) (N := 256) (V c main_v41) (V c main_v29) (V c main_v12) (V c main_v42)
        (((cfg1.win 4).blk t).view.emb (ix2 p q))
  refine (pay_apply _ _ _ _ p q).trans ?_
  rw [blk_agg V c t p q, blk_feat V c t p q, blk_deg V c t p q, blk_bias V c t p q]
  rfl

/-- An index of the result is in point t's block iff each coordinate is in the block's range on its axis. -/
theorem mem_blk (t : Fin cfg1.N) (i : S50000x256.Idx) :
    i ∈ ((cfg1.win 4).blk t).view.set
      ↔ ∀ a : Fin 2, win1_4.index t a * S1000x256.size a ≤ (i a).val
          ∧ (i a).val < win1_4.index t a * S1000x256.size a + S1000x256.size a := by
  show i ∈ ((View.whole main_v43).slice (win1_4.rect t)).set ↔ _
  rw [View.set_slice_whole, Rect.mem_set_unit]
  exact Iff.rfl

/-- The fifty row blocks tile the result: row r lies in the block of point r / 1000. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := idx_onto ⟨(i 0).val / 1000, by omega⟩
  have q0 : win1_4.index t (0 : Fin 2) = (i 0).val / 1000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 1000 ≤ (i 0).val ∧ (i 0).val < win1_4.index t (0 : Fin 2) * 1000 + 1000
    omega
  | ⟨1, _⟩ =>
    show win1_4.index t (1 : Fin 2) * 256 ≤ (i 1).val ∧ (i 1).val < win1_4.index t (1 : Fin 2) * 256 + 256
    omega

/-- The result array after the region is the closing step of the four arrays the region finds. -/
theorem final (c : Dev nD) :
    (dat1 V c).arrAt 4 cfg1.N = Cert.Layer.selfLoop (M := 50000) (N := 256) (V c main_v41) (V c main_v29) (V c main_v12) (V c main_v42) :=
  (dat1 V c).arrAt_eq_of_cover 4 _ (fun t _ => flushed_eq V c t) cover

end Cert.KernelIdeal.Combine1

end
-- ==== Proof.Product2.lean ====
/-
  The second layer's feature transform: as the first layer's, with a [1000 × 256] block of the first layer's
  output per grid point against the whole [256 × 256] weight array. The 50 row blocks tile the [50000 × 256] result,
  which is the plain product of the two whole arrays.
-/
import proofs.«106007_j74491912782367_1_alg».proof.Proof.Gen.KernelIdeal.Frame
import proofs.«106007_j74491912782367_1_alg».proof.Proof.Layer
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-- One block's product at entry (p, q): the reshaping to the same shape and the format changes are the identity and
    the accumulator is zero, so the entry is the sum over the contraction index of row entry times column entry. -/
theorem pay_apply (x0 : Vec Ideal S1000x256 .f32) (x1 : Vec Ideal S256x256 .f32) (p : Fin 1000) (q : Fin 256) :
    k2_pay1 x0 x1 (ix2 p q) = ∑ kk : Fin 256, x0 (ix2 p kk) * x1 (ix2 kk q) := by
  unfold k2_pay1
  refine (Cert.LibDense.matmul_zero_apply (M := 1000) (K := 256) (N := 256) dot_S1000x256_S256x256_S1000x256_1_0_0_1_n_n none
    rfl rfl rfl rfl rfl rfl (truncf .bf16 (shapeCast S1000x256 x0 shapeCasts_S1000x256_S1000x256) bitsLt_bf16_f32)
    (truncf .bf16 x1 bitsLt_bf16_f32) p q).trans ?_
  refine Finset.sum_congr rfl fun kk _ => ?_
  exact congrArg (fun z : EReal => z * x1 (ix2 kk q)) (congrFun (shapeCast_self x0 shapeCasts_S1000x256_S1000x256) (ix2 p kk))

/-- The block indices at grid point t: the input rows and the result rows are at row block t, column block 0; the
    weight array is at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of point t's input block is the input array's entry at the result block's row p, column k. -/
theorem rows_read (c : Dev nD) (t : Fin cfg2.N) (p : Fin 1000) (q : Fin 256) (k : Fin 256) :
    iblk2 V c 0 t (ix2 p k) = V c main_v43 (ix2 ((((cfg2.win 2).blk t).view.emb (ix2 p q)) 0) k) := by
  obtain ⟨e0, e1, e2, e3, e4, e5⟩ := idx_facts t
  show V c main_v43 (((cfg2.win 0).blk t).view.emb (ix2 p k)) = V c main_v43 (ix2 ((((cfg2.win 2).blk t).view.emb (ix2 p q)) 0) k)
  refine congrArg (V c main_v43) ?_
  funext a; apply Fin.ext
  match a with
  | ⟨0, _⟩ => show win2_0.index t (0 : Fin 2) * 1000 + 1 * p.val = win2_2.index t (0 : Fin 2) * 1000 + 1 * p.val; omega
  | ⟨1, _⟩ => show win2_0.index t (1 : Fin 2) * 256 + 1 * k.val = k.val; omega

/-- Entry (k, q) of point t's weight block is the weight array's entry at row k and the result block's column q. -/
theorem weights_read (c : Dev nD) (t : Fin cfg2.N) (p : Fin 1000) (q : Fin 256) (k : Fin 256) :
    iblk2 V c 1 t (ix2 k q) = V c main_arg4 (ix2 k ((((cfg2.win 2).blk t).view.emb (ix2 p q)) 1)) := by
  obtain ⟨e0, e1, e2, e3, e4, e5⟩ := idx_facts t
  show V c main_arg4 (((cfg2.win 1).blk t).view.emb (ix2 k q)) = V c main_arg4 (ix2 k ((((cfg2.win 2).blk t).view.emb (ix2 p q)) 1))
  refine congrArg (V c main_arg4) ?_
  funext a; apply Fin.ext
  match a with
  | ⟨0, _⟩ => show win2_1.index t (0 : Fin 2) * 256 + 1 * k.val = k.val; omega
  | ⟨1, _⟩ => show win2_1.index t (1 : Fin 2) * 256 + 1 * q.val = win2_2.index t (1 : Fin 2) * 256 + 1 * q.val; omega

/-- What point t writes back is block t of the product of the two whole arrays. -/
theorem flushed_eq (c : Dev nD) (t : Fin cfg2.N) :
    (dat2 V c).flushed 2 t = ((cfg2.win 2).blk t).view.read (Elt Ideal)
      (Cert.Layer.dense (M := 50000) (K := 256) (N := 256) (V c main_v43) (V c main_arg4)) := by
  show (cfg2.win 2).cut (grid2.coords t) ((dat2 V c).after 2 t) = _
  rw [after2_2]
  unfold out2_2
  rw [View.canon_unit_zero hz]
  simp only [View.ld_unit_zero (S := S1000x256) hz, View.ld_unit_zero (S := S256x256) hz]
  funext j
  obtain ⟨p, q, rfl⟩ : ∃ (p : Fin 1000) (q : Fin 256), j = ix2 p q := ⟨j 0, j 1, eq_ix2 j⟩
  show k2_pay1 (iblk2 V c 0 t) (iblk2 V c 1 t) (ix2 p q)
    = Cert.Layer.dense (M := 50000) (K := 256) (N := 256) (V c main_v43) (V c main_arg4) (((cfg2.win 2).blk t).view.emb (ix2 p q))
  refine (pay_apply (iblk2 V c 0 t) (iblk2 V c 1 t) p q).trans ?_
  refine Finset.sum_congr rfl fun k _ => ?_
  exact congrArg₂ (· * ·) (rows_read V c t p q k) (weights_read V c t p q k)

/-- An index of the result is in point t's block iff each coordinate is in the block's range on its axis. -/
theorem mem_blk (t : Fin cfg2.N) (i : S50000x256.Idx) :
    i ∈ ((cfg2.win 2).blk t).view.set ↔ ∀ a : Fin 2, win2_2.index t a * S1000x256.size a ≤ (i a).val ∧ (i a).val < win2_2.index t a * S1000x256.size a + S1000x256.size a := by
  show i ∈ ((View.whole main_v44).slice (win2_2.rect t)).set ↔ _
  rw [View.set_slice_whole, Rect.mem_set_unit]
  exact Iff.rfl

/-- The 50 row blocks tile the result: row r lies in the block of point r / 1000. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 1000 < cfg2.N := by show (i 0).val / 1000 < 50; omega
  obtain ⟨e0, e1, e2, e3, e4, e5⟩ := idx_facts ⟨(i 0).val / 1000, ht⟩
  refine ⟨⟨(i 0).val / 1000, ht⟩, flush2_2 _, ?_⟩
  rw [mem_blk]
  intro a
  match a with
  | ⟨0, _⟩ =>
    show win2_2.index ⟨(i 0).val / 1000, ht⟩ (0 : Fin 2) * 1000 ≤ (i 0).val ∧ (i 0).val < win2_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win2_2.index ⟨(i 0).val / 1000, ht⟩ (1 : Fin 2) * 256 ≤ (i 1).val ∧ (i 1).val < win2_2.index ⟨(i 0).val / 1000, ht⟩ (1 : Fin 2) * 256 + 256
    rw [e5]; omega

/-- The result array after the region: the plain product of the first layer's output by the second layer's weights. -/
theorem final (c : Dev nD) :
    (dat2 V c).arrAt 2 cfg2.N = Cert.Layer.dense (M := 50000) (K := 256) (N := 256) (V c main_v43) (V c main_arg4) :=
  (dat2 V c).arrAt_eq_of_cover 2 _ (fun t _ => flushed_eq V c t) cover

end Cert.KernelIdeal.Product2

end
-- ==== Proof.Combine3.lean ====
/-
  The second layer's closing step: the same entrywise combination as the first layer's — aggregate plus the node's own
  features scaled by its inverse degree, plus the bias, rectified — over the second layer's arrays. The 50 row
  blocks tile the [50000 × 256] result.
-/
import proofs.«106007_j74491912782367_1_alg».proof.Proof.Gen.KernelIdeal.Frame
import proofs.«106007_j74491912782367_1_alg».proof.Proof.Layer
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero vector of block offsets, as a constant function. -/
theorem hz : (![0, 0] : Fin 2 → Nat) = fun _ => 0 := funext fun a => by fin_cases a <;> rfl

/-- A column [a × 1] broadcast to [a × b] reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at entry (p, q) of a block: aggregate plus features times the row's inverse degree plus the
    column's bias, rectified. -/
theorem pay_apply (x0 x1 : Vec Ideal S1000x256 .f32) (x2 : Vec Ideal S1000x1 .f32) (x3 : Vec Ideal S1x256 .f32)
    (p : Fin 1000) (q : Fin 256) :
    k3_pay1 x0 x1 x2 x3 (ix2 p q)
      = max (x0 (ix2 p q) + x1 (ix2 p q) * x2 (ix2 p (0 : Fin 1)) + x3 (ix2 (0 : Fin 1) q)) (Ideal.ofBits .f32 0x00000000#32) := by
  have h0 : shapeCast S1000x256 x0 shapeCasts_S1000x256_S1000x256 (ix2 p q) = x0 (ix2 p q) :=
    congrFun (shapeCast_self x0 _) _
  have h1 : shapeCast S1000x256 x1 shapeCasts_S1000x256_S1000x256 (ix2 p q) = x1 (ix2 p q) :=
    congrFun (shapeCast_self x1 _) _
  have hc : broadcastTo S1000x256 (shapeCast S1000x1 x2 shapeCasts_S1000x1_S1000x1) broadcasts_S1000x1_S1000x256 (ix2 p q)
      = x2 (ix2 p (0 : Fin 1)) :=
    (broadcastTo_a1_ab_apply (a := 1000) (b := 256) _ _ p q).trans (congrFun (shapeCast_self x2 _) _)
  have hr : broadcastTo S1000x256 (shapeCast S1x256 x3 shapeCasts_S1x256_S1x256) broadcasts_S1x256_S1000x256 (ix2 p q)
      = x3 (ix2 (0 : Fin 1) q) :=
    (broadcastTo_1b_ab_apply (a := 1000) (b := 256) _ _ p q).trans (congrFun (shapeCast_self x3 _) _)
  unfold k3_pay1
  show max (shapeCast S1000x256 x0 shapeCasts_S1000x256_S1000x256 (ix2 p q)
      + shapeCast S1000x256 x1 shapeCasts_S1000x256_S1000x256 (ix2 p q)
        * broadcastTo S1000x256 (shapeCast S1000x1 x2 shapeCasts_S1000x1_S1000x1) broadcasts_S1000x1_S1000x256 (ix2 p q)
      + broadcastTo S1000x256 (shapeCast S1x256 x3 shapeCasts_S1x256_S1x256) broadcasts_S1x256_S1000x256 (ix2 p q))
      (Ideal.ofBits .f32 0x00000000#32) = _
  rw [h0, h1, hc, hr]

/-- The printed index maps, decided over the grid: the three row windows sit at the output's row block, the column
    window at lane block 0, the bias row at block (0, 0); and the output's row block stays below 50. -/
theorem idx_facts : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 2) = 0 ∧ win3_3.index t (1 : Fin 2) = win3_4.index t (1 : Fin 2)
    ∧ win3_4.index t (0 : Fin 2) ≤ 49 ∧ win3_4.index t (1 : Fin 2) = 0 :=
  (by decide +kernel : ∀ t : Fin grid3.N, _)

/-- Every row block 0 … 49 of the result is some point's. -/
theorem idx_onto : ∀ r : Fin 50, ∃ t : Fin cfg3.N, win3_4.index t = ![r.val, 0] :=
  (by decide +kernel : ∀ r : Fin 50, ∃ t : Fin grid3.N, win3_4.index t = ![r.val, 0])

/-- The aggregate's block at point t is read where the output's block lies. -/
theorem blk_agg (c : Dev nD) (t : Fin cfg3.N) (p : Fin 1000) (q : Fin 256) :
    iblk3 V c 0 t (ix2 p q) = V c main_v56 (((cfg3.win 4).blk t).view.emb (ix2 p q)) := by
  obtain ⟨e00, e01, e10, e11, e20, e21, e30, e31, e40, e41⟩ := idx_facts t
  show V c main_v56 (((cfg3.win 0).blk t).view.emb (ix2 p q)) = V c main_v56 (((cfg3.win 4).blk t).view.emb (ix2 p q))
  refine congrArg (V c main_v56) ?_
  funext a; apply Fin.ext
  match a with
  | ⟨0, _⟩ => show win3_0.index t (0 : Fin 2) * 1000 + 1 * p.val = win3_4.index t (0 : Fin 2) * 1000 + 1 * p.val; omega
  | ⟨1, _⟩ => show win3_0.index t (1 : Fin 2) * 256 + 1 * q.val = win3_4.index t (1 : Fin 2) * 256 + 1 * q.val; omega

/-- The features' block at point t is read where the output's block lies. -/
theorem blk_feat (c : Dev nD) (t : Fin cfg3.N) (p : Fin 1000) (q : Fin 256) :
    iblk3 V c 1 t (ix2 p q) = V c main_v44 (((cfg3.win 4).blk t).view.emb (ix2 p q)) := by
  obtain ⟨e00, e01, e10, e11, e20, e21, e30, e31, e40, e41⟩ := idx_facts t
  show V c main_v44 (((cfg3.win 1).blk t).view.emb (ix2 p q)) = V c main_v44 (((cfg3.win 4).blk t).view.emb (ix2 p q))
  refine congrArg (V c main_v44) ?_
  funext a; apply Fin.ext
  match a with
  | ⟨0, _⟩ => show win3_1.index t (0 : Fin 2) * 1000 + 1 * p.val = win3_4.index t (0 : Fin 2) * 1000 + 1 * p.val; omega
  | ⟨1, _⟩ => show win3_1.index t (1 : Fin 2) * 256 + 1 * q.val = win3_4.index t (1 : Fin 2) * 256 + 1 * q.val; omega

/-- The inverse-degree block at point t holds the entries of the output block's rows. -/
theorem blk_deg (c : Dev nD) (t : Fin cfg3.N) (p : Fin 1000) (q : Fin 256) :
    iblk3 V c 2 t (ix2 p (0 : Fin 1))
      = V c main_v12 (ix2 ((((cfg3.win 4).blk t).view.emb (ix2 p q)) 0) (0 : Fin 1)) := by
  obtain ⟨e00, e01, e10, e11, e20, e21, e30, e31, e40, e41⟩ := idx_facts t
  show V c main_v12 (((cfg3.win 2).blk t).view.emb (ix2 p (0 : Fin 1))) = _
  refine congrArg (V c main_v12) ?_
  funext a; apply Fin.ext
  match a with
  | ⟨0, _⟩ => show win3_2.index t (0 : Fin 2) * 1000 + 1 * p.val = win3_4.index t (0 : Fin 2) * 1000 + 1 * p.val; omega
  | ⟨1, _⟩ => show win3_2.index t (1 : Fin 2) * 1 + 1 * 0 = 0; omega

/-- The bias block at every point is the whole bias row. -/
theorem blk_bias (c : Dev nD) (t : Fin cfg3.N) (p : Fin 1000) (q : Fin 256) :
    iblk3 V c 3 t (ix2 (0 : Fin 1) q)
      = V c main_v57 (ix2 (0 : Fin 1) ((((cfg3.win 4).blk t).view.emb (ix2 p q)) 1)) := by
  obtain ⟨e00, e01, e10, e11, e20, e21, e30, e31, e40, e41⟩ := idx_facts t
  show V c main_v57 (((cfg3.win 3).blk t).view.emb (ix2 (0 : Fin 1) q)) = _
  refine congrArg (V c main_v57) ?_
  funext a; apply Fin.ext
  match a with
  | ⟨0, _⟩ => show win3_3.index t (0 : Fin 2) * 1 + 1 * 0 = 0; omega
  | ⟨1, _⟩ => show win3_3.index t (1 : Fin 2) * 256 + 1 * q.val = win3_4.index t (1 : Fin 2) * 256 + 1 * q.val; omega

/-- What point t writes back is block t of the closing step of the four whole arrays. -/
theorem flushed_eq (c : Dev nD) (t : Fin cfg3.N) :
    (dat3 V c).flushed 4 t = ((cfg3.win 4).blk t).view.read (Elt Ideal)
      (Cert.Layer.selfLoop (M := 50000) (N := 256) (V c main_v56) (V c main_v44) (V c main_v12) (V c main_v57)) := by
  show (cfg3.win 4).cut (grid3.coords t) ((dat3 V c).after 4 t) = _
  rw [after3_4]
  unfold out3_4
  rw [View.canon_unit_zero hz]
  simp only [View.ld_unit_zero (S := S1000x256) hz, View.ld_unit_zero (S := S1000x1) hz, View.ld_unit_zero (S := S1x256) hz]
  funext j
  obtain ⟨p, q, rfl⟩ : ∃ (p : Fin 1000) (q : Fin 256), j = ix2 p q := ⟨j 0, j 1, eq_ix2 j⟩
  show k3_pay1 (iblk3 V c 0 t) (iblk3 V c 1 t) (iblk3 V c 2 t) (iblk3 V c 3 t) (ix2 p q)
    = Cert.Layer.selfLoop (M := 50000) (N := 256) (V c main_v56) (V c main_v44) (V c main_v12) (V c main_v57)
        (((cfg3.win 4).blk t).view.emb (ix2 p q))
  refine (pay_apply _ _ _ _ p q).trans ?_
  rw [blk_agg V c t p q, blk_feat V c t p q, blk_deg V c t p q, blk_bias V c t p q]
  rfl

/-- An index of the result is in point t's block iff each coordinate is in the block's range on its axis. -/
theorem mem_blk (t : Fin cfg3.N) (i : S50000x256.Idx) :
    i ∈ ((cfg3.win 4).blk t).view.set
      ↔ ∀ a : Fin 2, win3_4.index t a * S1000x256.size a ≤ (i a).val
          ∧ (i a).val < win3_4.index t a * S1000x256.size a + S1000x256.size a := by
  show i ∈ ((View.whole main_v58).slice (win3_4.rect t)).set ↔ _
  rw [View.set_slice_whole, Rect.mem_set_unit]
  exact Iff.rfl

/-- The fifty row blocks tile the result: row r lies in the block of point r / 1000. -/
theorem cover (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  obtain ⟨t, ht⟩ := idx_onto ⟨(i 0).val / 1000, by omega⟩
  have q0 : win3_4.index t (0 : Fin 2) = (i 0).val / 1000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 1000 ≤ (i 0).val ∧ (i 0).val < win3_4.index t (0 : Fin 2) * 1000 + 1000
    omega
  | ⟨1, _⟩ =>
    show win3_4.index t (1 : Fin 2) * 256 ≤ (i 1).val ∧ (i 1).val < win3_4.index t (1 : Fin 2) * 256 + 256
    omega

/-- The result array after the region is the closing step of the four arrays the region finds. -/
theorem final (c : Dev nD) :
    (dat3 V c).arrAt 4 cfg3.N = Cert.Layer.selfLoop (M := 50000) (N := 256) (V c main_v56) (V c main_v44) (V c main_v12) (V c main_v57) :=
  (dat3 V c).arrAt_eq_of_cover 4 _ (fun t _ => flushed_eq V c t) cover

end Cert.KernelIdeal.Combine3

end
-- ==== Proof.Affine4.lean ====
/-
  The linear read-out. Grid point t takes rows 1000·t … 1000·t + 999 of the second layer's output, the whole
  [256 × 2] weight array and the [1 × 2] bias row, and writes the block's product plus the bias row broadcast down the
  rows. The 50 row blocks tile the [50000 × 2] result, which is the plain product of the whole arrays plus the bias.
-/
import proofs.«106007_j74491912782367_1_alg».proof.Proof.Gen.KernelIdeal.Frame
import proofs.«106007_j74491912782367_1_alg».proof.Proof.Layer
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Affine4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset, as a constant function. -/
theorem hz : (![0, 0] : Fin 2 → Nat) = fun _ => 0 := funext fun a => by fin_cases a <;> rfl

/-- The body's payload at row p, column q of the block: the row of the feature block times the column of the weights,
    plus the bias row's entry at q. -/
theorem pay_apply (x0 : Vec Ideal S1000x256 .f32) (x1 : Vec Ideal S256x2 .f32) (x2 : Vec Ideal S1x2 .f32)
    (p : Fin 1000) (q : Fin 2) :
    k4_pay1 x0 x1 x2 (ix2 p q) = (∑ k : Fin 256, x0 (ix2 p k) * x1 (ix2 k q)) + x2 (ix2 (0 : Fin 1) q) := by
  unfold k4_pay1
  refine (addf_apply _ _ _).trans ?_
  refine congrArg₂ (· + ·) ?_ ?_
  · refine (Cert.LibDense.matmul_zero_apply (M := 1000) (K := 256) (N := 2) _ none rfl rfl rfl rfl rfl rfl _ _ p q).trans ?_
    refine Finset.sum_congr rfl fun k _ => ?_
    refine congrArg₂ (· * ·) ?_ ?_
    · exact congrFun (shapeCast_self x0 _) (ix2 p k)
    · rfl
  · refine (broadcastTo_1b_ab_apply (a := 1000) (b := 2) _ _ p q).trans ?_
    exact congrFun (shapeCast_self x2 _) (ix2 (0 : Fin 1) q)

/-- The printed index maps, decided over the grid: the feature window's row block is the output's, whose row block is the
    point's number; every other block index is 0. -/
theorem idx_facts : ∀ t : Fin cfg4.N, win4_3.index t (0 : Fin 2) = t.val
    ∧ win4_3.index t (1 : Fin 2) = 0
    ∧ win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0 :=
  (by decide +kernel : ∀ t : Fin grid4.N, _)

/-- The grid has 50 points. -/
theorem grid_N : cfg4.N = 50 := by decide +kernel

/-- What point t writes back is row block t of the product of the whole arrays plus the bias row. -/
theorem flushed_eq (c : Dev nD) (t : Fin cfg4.N) :
    (dat4 V c).flushed 3 t = ((cfg4.win 3).blk t).view.read (Elt Ideal)
      (Cert.Layer.affine (M := 50000) (K := 256) (N := 2) (V c main_v58) (V c main_arg6) (V c main_v59)) := by
  show (cfg4.win 3).cut (grid4.coords t) ((dat4 V c).after 3 t) = _
  rw [after4_3]
  unfold out4_3
  rw [View.canon_unit_zero hz]
  simp only [View.ld_unit_zero (S := S1000x256) hz, View.ld_unit_zero (S := S256x2) hz, View.ld_unit_zero (S := S1x2) hz]
  obtain ⟨e0, e1, e2, e3, e4, e5, e6, e7⟩ := idx_facts t
  funext j
  obtain ⟨p, q, rfl⟩ : ∃ (p : Fin 1000) (q : Fin 2), j = ix2 p q := ⟨j 0, j 1, eq_ix2 j⟩
  show k4_pay1 (iblk4 V c 0 t) (iblk4 V c 1 t) (iblk4 V c 2 t) (ix2 p q)
      = Cert.Layer.affine (M := 50000) (K := 256) (N := 2) (V c main_v58) (V c main_arg6) (V c main_v59) (((cfg4.win 3).blk t).view.emb (ix2 p q))
  have hp : p.val < 1000 := p.isLt
  have ht : t.val < 50 := lt_of_lt_of_eq t.isLt grid_N
  have hi : ((cfg4.win 3).blk t).view.emb (ix2 p q) = ix2 (⟨t.val * 1000 + p.val, by omega⟩ : Fin 50000) q := by
    funext a; apply Fin.ext
    match a with
    | ⟨0, _⟩ => show win4_3.index t (0 : Fin 2) * 1000 + 1 * p.val = t.val * 1000 + p.val; omega
    | ⟨1, _⟩ => show win4_3.index t (1 : Fin 2) * 2 + 1 * q.val = q.val; omega
  rw [hi, Cert.Layer.affine_apply]
  refine (pay_apply _ _ _ p q).trans ?_
  have h0 : ∀ k : Fin 256, iblk4 V c 0 t (ix2 p k) = V c main_v58 (ix2 (⟨t.val * 1000 + p.val, by omega⟩ : Fin 50000) k) := fun k => by
    show V c main_v58 (((cfg4.win 0).blk t).view.emb (ix2 p k)) = V c main_v58 _
    refine congrArg (V c main_v58) (funext fun a => Fin.ext ?_)
    match a with
    | ⟨0, _⟩ => show win4_0.index t (0 : Fin 2) * 1000 + 1 * p.val = t.val * 1000 + p.val; omega
    | ⟨1, _⟩ => show win4_0.index t (1 : Fin 2) * 256 + 1 * k.val = k.val; omega
  have h1 : ∀ k : Fin 256, iblk4 V c 1 t (ix2 k q) = V c main_arg6 (ix2 k q) := fun k => by
    show V c main_arg6 (((cfg4.win 1).blk t).view.emb (ix2 k q)) = V c main_arg6 _
    refine congrArg (V c main_arg6) (funext fun a => Fin.ext ?_)
    match a with
    | ⟨0, _⟩ => show win4_1.index t (0 : Fin 2) * 256 + 1 * k.val = k.val; omega
    | ⟨1, _⟩ => show win4_1.index t (1 : Fin 2) * 2 + 1 * q.val = q.val; omega
  have h2 : iblk4 V c 2 t (ix2 (0 : Fin 1) q) = V c main_v59 (ix2 (0 : Fin 1) q) := by
    show V c main_v59 (((cfg4.win 2).blk t).view.emb (ix2 (0 : Fin 1) q)) = V c main_v59 _
    refine congrArg (V c main_v59) (funext fun a => Fin.ext ?_)
    match a with
    | ⟨0, _⟩ => show win4_2.index t (0 : Fin 2) * 1 + 1 * 0 = 0; omega
    | ⟨1, _⟩ => show win4_2.index t (1 : Fin 2) * 2 + 1 * q.val = q.val; omega
  exact congrArg₂ (· + ·) (Finset.sum_congr rfl fun k _ => congrArg₂ (· * ·) (h0 k) (h1 k)) h2

/-- An index of the result is in point t's row block iff each coordinate is in the block's range on its axis. -/
theorem mem_blk (t : Fin cfg4.N) (i : S50000x2.Idx) :
    i ∈ ((cfg4.win 3).blk t).view.set ↔ ∀ a : Fin 2, win4_3.index t a * S1000x2.size a ≤ (i a).val ∧ (i a).val < win4_3.index t a * S1000x2.size a + S1000x2.size a := by
  show i ∈ ((View.whole main_v60).slice (win4_3.rect t)).set ↔ _
  rw [View.set_slice_whole, Rect.mem_set_unit]
  exact Iff.rfl

/-- Row r of the result lies in the block of point r / 1000. -/
theorem cover (i : S50000x2.Idx) : ∃ t : Fin cfg4.N, (cfg4.win 3).flush t = true ∧ i ∈ ((cfg4.win 3).blk t).view.set := by
  have hi0 : (i 0).val < 50000 := (i 0).isLt
  have hi1 : (i 1).val < 2 := (i 1).isLt
  have hN : (i 0).val / 1000 < cfg4.N := by rw [grid_N]; omega
  obtain ⟨e0, e1, -⟩ := idx_facts ⟨(i 0).val / 1000, hN⟩
  refine ⟨⟨(i 0).val / 1000, hN⟩, flush4_3 _, ?_⟩
  rw [mem_blk]
  intro a
  match a with
  | ⟨0, _⟩ => show win4_3.index ⟨(i 0).val / 1000, hN⟩ (0 : Fin 2) * 1000 ≤ (i 0).val ∧ (i 0).val < win4_3.index ⟨(i 0).val / 1000, hN⟩ (0 : Fin 2) * 1000 + 1000; rw [e0]; show (i 0).val / 1000 * 1000 ≤ (i 0).val ∧ (i 0).val < (i 0).val / 1000 * 1000 + 1000; omega
  | ⟨1, _⟩ => show win4_3.index ⟨(i 0).val / 1000, hN⟩ (1 : Fin 2) * 2 ≤ (i 1).val ∧ (i 1).val < win4_3.index ⟨(i 0).val / 1000, hN⟩ (1 : Fin 2) * 2 + 2; omega

/-- The result array after the region: the whole feature array times the weights, plus the bias row, entry by entry. -/
theorem final (c : Dev nD) :
    (dat4 V c).arrAt 3 cfg4.N = Cert.Layer.affine (M := 50000) (K := 256) (N := 2) (V c main_v58) (V c main_arg6) (V c main_v59) :=
  (dat4 V c).arrAt_eq_of_cover 3 _ (fun t _ => flushed_eq V c t) cover

end Cert.KernelIdeal.Affine4

end
-- ==== Proof.LibColumn.lean ====
/-
  A vector as a column, and a vector as a row.

  Reshaping an [n] array to [n, 1] and broadcasting it into [n, 1] along axis 0 are the same array: entry (p, 0) is
  the vector's entry p either way. Likewise an [n] array reshaped to [1, n] has entry (0, q) equal to the vector's
  entry q. Stated for any element type.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- An [n] array reshaped to a column, read at (p, 0). -/
theorem shapeCast_col_apply {n : ℕ} (v : (⟨1, ![n]⟩ : Shape).Idx → α) (h : (⟨1, ![n]⟩ : Shape).ShapeCasts ⟨2, ![n, 1]⟩)
    (p : Fin n) (z : Fin 1) : shapeCast ⟨2, ![n, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- An [n] array broadcast into a column along axis 0, read at (p, 0). -/
theorem broadcastInDim_col_apply {n : ℕ} (v : (⟨1, ![n]⟩ : Shape).Idx → α)
    (dims : Fin 1 → Fin 2) (hd : dims 0 = 0) (h : (⟨1, ![n]⟩ : Shape).BroadcastsInDim ⟨2, ![n, 1]⟩ dims)
    (p : Fin n) (z : Fin 1) : broadcastInDim ⟨2, ![n, 1]⟩ dims h v (ix2 p z) = v (ix1 p) := by
  refine broadcastInDim_apply dims h v (ix2 p z) (ix1 p) fun a => ?_
  match a with
  | ⟨0, _⟩ =>
    show p.val = if n = 1 then 0 else ((ix2 p z : (⟨2, ![n, 1]⟩ : Shape).Idx) (dims 0)).val
    rw [hd]
    show p.val = if n = 1 then 0 else p.val
    split
    · have := p.isLt; omega
    · rfl

/-- The reshape of a vector to a column IS its broadcast into a column along axis 0. -/
theorem shapeCast_col_eq_broadcastInDim {n : ℕ} (v : (⟨1, ![n]⟩ : Shape).Idx → α)
    (h : (⟨1, ![n]⟩ : Shape).ShapeCasts ⟨2, ![n, 1]⟩)
    (dims : Fin 1 → Fin 2) (hd : dims 0 = 0) (h' : (⟨1, ![n]⟩ : Shape).BroadcastsInDim ⟨2, ![n, 1]⟩ dims) :
    shapeCast ⟨2, ![n, 1]⟩ v h = broadcastInDim ⟨2, ![n, 1]⟩ dims h' v := by
  funext j
  obtain ⟨p, z, rfl⟩ : ∃ (p : Fin n) (z : Fin 1), j = ix2 p z := ⟨j 0, j 1, eq_ix2 j⟩
  rw [shapeCast_col_apply, broadcastInDim_col_apply v dims hd]

end Cert.LibColumn

end
-- ==== Proof.RefDense.lean ====
/-
  The reference's three general dots, entry by entry: each is the plain product of its operands, and the last sum adds
  the read-out's bias, broadcast down the rows, which is the bias reshaped to a row read at its column.
-/
import proofs.«106007_j74491912782367_1_alg».proof.Proof.RefImports
import proofs.«106007_j74491912782367_1_alg».proof.Proof.Layer
import proofs.«106007_j74491912782367_1_alg».proof.Proof.LibColumn
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.Read Idealize.ShloMosaic Idealize.ShloMosaic.TcCoe
open Idealize.ShloMosaic.ValueIdx

variable (x0 : (⟨S50000x128, .f32⟩ : BufTy).Contents (Elt Ideal)) (x1 : (⟨S2x600000, .i32⟩ : BufTy).Contents (Elt Ideal)) (x2 : (⟨S128x256, .f32⟩ : BufTy).Contents (Elt Ideal))
  (x3 : (⟨S256, .f32⟩ : BufTy).Contents (Elt Ideal)) (x4 : (⟨S256x256, .f32⟩ : BufTy).Contents (Elt Ideal)) (x5 : (⟨S256, .f32⟩ : BufTy).Contents (Elt Ideal))
  (x6 : (⟨S256x2, .f32⟩ : BufTy).Contents (Elt Ideal)) (x7 : (⟨S2, .f32⟩ : BufTy).Contents (Elt Ideal))

/-- The first layer's feature transform is the plain product. -/
theorem transform1 : val_main_v11 (F := Ideal) x0 x2 = Cert.Layer.dense (M := 50000) (K := 128) (N := 256) x0 x2 := by
  funext i
  obtain ⟨p, q, rfl⟩ : ∃ (p : Fin 50000) (q : Fin 256), i = ix2 p q := ⟨i 0, i 1, eq_ix2 i⟩
  refine (val_main_v11_apply x0 x2 (ix2 p q)).trans ?_
  refine Finset.sum_congr rfl fun k _ => ?_
  have el : lidx_main_v11 (ix2 p q) k = ix2 p k := funext fun a => Fin.ext (by match a with | ⟨0, _⟩ => rfl | ⟨1, _⟩ => rfl)
  have er : ridx_main_v11 (ix2 p q) k = ix2 k q := funext fun a => Fin.ext (by match a with | ⟨0, _⟩ => rfl | ⟨1, _⟩ => rfl)
  exact congrArg₂ (· * ·) (congrArg x0 el) (congrArg x2 er)

/-- The second layer's feature transform is the plain product. -/
theorem transform2 : val_main_v49 (F := Ideal) x0 x1 x2 x3 x4
    = Cert.Layer.dense (M := 50000) (K := 256) (N := 256) (val_main_v48 (F := Ideal) x0 x1 x2 x3) x4 := by
  funext i
  obtain ⟨p, q, rfl⟩ : ∃ (p : Fin 50000) (q : Fin 256), i = ix2 p q := ⟨i 0, i 1, eq_ix2 i⟩
  refine (val_main_v49_apply x0 x1 x2 x3 x4 (ix2 p q)).trans ?_
  refine Finset.sum_congr rfl fun k _ => ?_
  have el : lidx_main_v49 (ix2 p q) k = ix2 p k := funext fun a => Fin.ext (by match a with | ⟨0, _⟩ => rfl | ⟨1, _⟩ => rfl)
  have er : ridx_main_v49 (ix2 p q) k = ix2 k q := funext fun a => Fin.ext (by match a with | ⟨0, _⟩ => rfl | ⟨1, _⟩ => rfl)
  exact congrArg₂ (· * ·) (congrArg (val_main_v48 (F := Ideal) x0 x1 x2 x3) el) (congrArg x4 er)

/-- The read-out's product at entry (p, q): the sum over the contraction index. -/
theorem product3_apply (p : Fin 50000) (q : Fin 2) :
    val_main_v87 (F := Ideal) x0 x1 x2 x3 x4 x5 x6 (ix2 p q)
      = ∑ k : Fin 256, val_main_v86 (F := Ideal) x0 x1 x2 x3 x4 x5 (ix2 p k) * x6 (ix2 k q) := by
  refine (val_main_v87_apply x0 x1 x2 x3 x4 x5 x6 (ix2 p q)).trans ?_
  refine Finset.sum_congr rfl fun k _ => ?_
  have el : lidx_main_v87 (ix2 p q) k = ix2 p k := funext fun a => Fin.ext (by match a with | ⟨0, _⟩ => rfl | ⟨1, _⟩ => rfl)
  have er : ridx_main_v87 (ix2 p q) k = ix2 k q := funext fun a => Fin.ext (by match a with | ⟨0, _⟩ => rfl | ⟨1, _⟩ => rfl)
  exact congrArg₂ (· * ·) (congrArg (val_main_v86 (F := Ideal) x0 x1 x2 x3 x4 x5) el) (congrArg x6 er)

/-- The bias broadcast down the rows, read at (p, q), is the bias reshaped to a row read at (0, q): both are the
    bias's entry q. -/
theorem bias_apply (h : S2.ShapeCasts S1x2) (p : Fin 50000) (q : Fin 2) :
    val_main_v89 (F := Ideal) x7 (ix2 p q) = shapeCast S1x2 x7 h (ix2 (0 : Fin 1) q) := by
  rw [val_main_v89_apply, val_main_v88_apply]
  refine Eq.trans ?_ (shapeCast_a_1a_apply x7 h (0 : Fin 1) q).symm
  exact congrArg x7 (funext fun a => Fin.ext (by match a with | ⟨0, _⟩ => rfl))

/-- The result is the read-out. -/
theorem readout (h : S2.ShapeCasts S1x2) : val_main_v90 (F := Ideal) x0 x1 x2 x3 x4 x5 x6 x7
    = Cert.Layer.affine (M := 50000) (K := 256) (N := 2) (val_main_v86 (F := Ideal) x0 x1 x2 x3 x4 x5) x6 (shapeCast S1x2 x7 h) := by
  funext i
  obtain ⟨p, q, rfl⟩ : ∃ (p : Fin 50000) (q : Fin 2), i = ix2 p q := ⟨i 0, i 1, eq_ix2 i⟩
  refine (val_main_v90_apply x0 x1 x2 x3 x4 x5 x6 x7 (ix2 p q)).trans ?_
  rw [product3_apply, bias_apply x7 h p q]
  exact (Cert.Layer.affine_apply (M := 50000) (K := 256) (N := 2) (val_main_v86 (F := Ideal) x0 x1 x2 x3 x4 x5) x6 (shapeCast S1x2 x7 h) p q).symm

end Cert.ReferenceIdeal.Layers

end
-- ==== Proof.RefClose.lean ====
/-
  The reference's two closing chains, entry by entry: "aggregate + features · (inverse degree broadcast along the row)
  + (bias broadcast down the rows), then maximum with zero" is the layer's closing step of the aggregate, the features,
  the inverse-degree column and the bias reshaped to a row. The second layer recomputes the inverse-degree column; it is
  the first layer's.
-/
import proofs.«106007_j74491912782367_1_alg».proof.Proof.RefImports
import proofs.«106007_j74491912782367_1_alg».proof.Proof.Layer
import proofs.«106007_j74491912782367_1_alg».proof.Proof.LibColumn
import proofs.«106007_j74491912782367_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.Read Idealize.ShloMosaic Idealize.ShloMosaic.TcCoe
open Idealize.ShloMosaic.ValueIdx

variable (x0 : (⟨S50000x128, .f32⟩ : BufTy).Contents (Elt Ideal)) (x1 : (⟨S2x600000, .i32⟩ : BufTy).Contents (Elt Ideal)) (x2 : (⟨S128x256, .f32⟩ : BufTy).Contents (Elt Ideal))
  (x3 : (⟨S256, .f32⟩ : BufTy).Contents (Elt Ideal)) (x4 : (⟨S256x256, .f32⟩ : BufTy).Contents (Elt Ideal)) (x5 : (⟨S256, .f32⟩ : BufTy).Contents (Elt Ideal))
  (x6 : (⟨S256x2, .f32⟩ : BufTy).Contents (Elt Ideal)) (x7 : (⟨S2, .f32⟩ : BufTy).Contents (Elt Ideal))

/-- The first layer's output is its closing step. -/
theorem close1 (h : S256.ShapeCasts S1x256) : val_main_v48 (F := Ideal) x0 x1 x2 x3
    = Cert.Layer.selfLoop (M := 50000) (N := 256) (val_main_v39 (F := Ideal) x0 x1 x2) (val_main_v11 (F := Ideal) x0 x2)
        (val_main_v41 (F := Ideal) x1) (shapeCast S1x256 x3 h) := by
  funext i
  obtain ⟨p, q, rfl⟩ : ∃ (p : Fin 50000) (q : Fin 256), i = ix2 p q := ⟨i 0, i 1, eq_ix2 i⟩
  rw [val_main_v48_apply, val_main_v47_apply, val_main_v44_apply, val_main_v43_apply, val_main_v42_apply,
    val_main_v46_apply, val_main_v45_apply, val_main_call0_v0_apply, val_main_call0_cst_apply, Cert.Layer.selfLoop_apply]
  have e42 : idx_main_v42 (ix2 p q) = ix2 p (0 : Fin 1) :=
    funext fun a => Fin.ext (by match a with | ⟨0, _⟩ => rfl | ⟨1, _⟩ => rfl)
  have e45 : idx_main_v45 (idx_main_v46 (ix2 p q)) = ix1 q :=
    funext fun a => Fin.ext (by match a with | ⟨0, _⟩ => rfl)
  rw [e42, e45, ← shapeCast_a_1a_apply (a := 256) x3 h (0 : Fin 1) q]
  rfl

/-- The second layer's inverse-degree column is the first layer's: the same product broadcast into a column. -/
theorem col_eq : val_main_v79 (F := Ideal) x1 = val_main_v41 (F := Ideal) x1 := rfl

/-- The second layer's output is its closing step (its inverse-degree column is the first layer's). -/
theorem close2 (h : S256.ShapeCasts S1x256) : val_main_v86 (F := Ideal) x0 x1 x2 x3 x4 x5
    = Cert.Layer.selfLoop (M := 50000) (N := 256) (val_main_v77 (F := Ideal) x0 x1 x2 x3 x4) (val_main_v49 (F := Ideal) x0 x1 x2 x3 x4)
        (val_main_v41 (F := Ideal) x1) (shapeCast S1x256 x5 h) := by
  funext i
  obtain ⟨p, q, rfl⟩ : ∃ (p : Fin 50000) (q : Fin 256), i = ix2 p q := ⟨i 0, i 1, eq_ix2 i⟩
  rw [val_main_v86_apply, val_main_v85_apply, val_main_v82_apply, val_main_v81_apply, val_main_v80_apply,
    val_main_v84_apply, val_main_v83_apply, val_main_call1_v0_apply, val_main_call1_cst_apply, Cert.Layer.selfLoop_apply]
  have e80 : idx_main_v80 (ix2 p q) = ix2 p (0 : Fin 1) :=
    funext fun a => Fin.ext (by match a with | ⟨0, _⟩ => rfl | ⟨1, _⟩ => rfl)
  have e83 : idx_main_v83 (idx_main_v84 (ix2 p q)) = ix1 q :=
    funext fun a => Fin.ext (by match a with | ⟨0, _⟩ => rfl)
  rw [e80, e83, col_eq, ← shapeCast_a_1a_apply (a := 256) x5 h (0 : Fin 1) q]
  rfl

end Cert.ReferenceIdeal.Layers

end
-- ==== Proof.Boundary.lean ====
/-
  The kernel program's result array as a function of its arguments: the reference's last stage.

  The launch memory is folded through @main's nine segments. The first host stretch computes, from the edge list alone,
  the edges' sources and destinations, the per-edge normalisation and the per-node inverse degree: the reference's
  stages of the same names (its normalisation column is a broadcast where the kernel's is a reshape: the same array).
  Then, layer by layer: the transform region leaves the plain product of the features and the weights, which is the
  reference's general dot; the next stretch aggregates it over the edges, the reference's aggregation stage being the
  same function; the closing region combines aggregate, features, inverse degree and bias, which is the reference's
  chain of sums ending in the rectifier. The read-out region closes with the reference's last dot and sum. Between its
  definition and its use every buffer passes through the other segments untouched.
-/
import proofs.«106007_j74491912782367_1_alg».proof.Proof.Aggregate
import proofs.«106007_j74491912782367_1_alg».proof.Proof.Product0
import proofs.«106007_j74491912782367_1_alg».proof.Proof.Combine1
import proofs.«106007_j74491912782367_1_alg».proof.Proof.Product2
import proofs.«106007_j74491912782367_1_alg».proof.Proof.Combine3
import proofs.«106007_j74491912782367_1_alg».proof.Proof.Affine4
import proofs.«106007_j74491912782367_1_alg».proof.Proof.RefDense
import proofs.«106007_j74491912782367_1_alg».proof.Proof.RefClose
import proofs.«106007_j74491912782367_1_alg».proof.Proof.LibColumn

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.ReferenceIdeal.Read Cert.ReferenceIdeal.Layers Cert.KernelIdeal.Aggregate

variable (m : (ℓ : Loc nD τ sig) → Buf (Elt Ideal) ℓ) (ρ : Dev nD → PrngReg) (c : Dev nD)

set_option quotPrecheck false

local notation "𝔞0" => m ((c : Thread nD τ).loc main_arg0)
local notation "𝔞1" => m ((c : Thread nD τ).loc main_arg1)
local notation "𝔞2" => m ((c : Thread nD τ).loc main_arg2)
local notation "𝔞3" => m ((c : Thread nD τ).loc main_arg3)
local notation "𝔞4" => m ((c : Thread nD τ).loc main_arg4)
local notation "𝔞5" => m ((c : Thread nD τ).loc main_arg5)
local notation "𝔞6" => m ((c : Thread nD τ).loc main_arg6)
local notation "𝔞7" => m ((c : Thread nD τ).loc main_arg7)

/-- A buffer a host stretch does not write, or one it computes by the operations the reference names. -/
local macro "host_stretch" : tactic => `(tactic| (after_results_simp <;> rfl))

/-! ## The first host stretch: everything computed from the edge list -/

set_option maxHeartbeats 8000000 in
theorem src1 : W1 m ρ c (Proc.devRef .tc main_v1) = val_main_v1 (F := Ideal) 𝔞1 := by
  show StableHlo.after hostOps0 (W0 m ρ c) (Proc.devRef .tc main_v1) = _
  host_stretch

set_option maxHeartbeats 8000000 in
theorem dst1 : W1 m ρ c (Proc.devRef .tc main_v3) = val_main_v3 (F := Ideal) 𝔞1 := by
  show StableHlo.after hostOps0 (W0 m ρ c) (Proc.devRef .tc main_v3) = _
  host_stretch

set_option maxHeartbeats 8000000 in
theorem nrm1 : W1 m ρ c (Proc.devRef .tc main_v28) = val_main_v27 (F := Ideal) 𝔞1 := by
  have h : W1 m ρ c (Proc.devRef .tc main_v28)
      = shapeCast S600000x1 (val_main_v26 (F := Ideal) 𝔞1) shapeCasts_S600000_S600000x1 := by
    show StableHlo.after hostOps0 (W0 m ρ c) (Proc.devRef .tc main_v28) = _
    host_stretch
  rw [h]
  exact Cert.LibColumn.shapeCast_col_eq_broadcastInDim (n := 600000) _ _ ![0] rfl _

set_option maxHeartbeats 8000000 in
theorem deg1 : W1 m ρ c (Proc.devRef .tc main_v12) = val_main_v41 (F := Ideal) 𝔞1 := by
  have h : W1 m ρ c (Proc.devRef .tc main_v12)
      = shapeCast S50000x1 (val_main_v40 (F := Ideal) 𝔞1) shapeCasts_S50000_S50000x1 := by
    show StableHlo.after hostOps0 (W0 m ρ c) (Proc.devRef .tc main_v12) = _
    host_stretch
  rw [h]
  exact Cert.LibColumn.shapeCast_col_eq_broadcastInDim (n := 50000) _ _ ![0] rfl _

set_option maxHeartbeats 8000000 in
theorem arg0_1 : W1 m ρ c (Proc.devRef .tc main_arg0) = 𝔞0 := by
  show StableHlo.after hostOps0 (W0 m ρ c) (Proc.devRef .tc main_arg0) = _
  host_stretch
set_option maxHeartbeats 8000000 in
theorem arg2_1 : W1 m ρ c (Proc.devRef .tc main_arg2) = 𝔞2 := by
  show StableHlo.after hostOps0 (W0 m ρ c) (Proc.devRef .tc main_arg2) = _
  host_stretch
set_option maxHeartbeats 8000000 in
theorem arg3_1 : W1 m ρ c (Proc.devRef .tc main_arg3) = 𝔞3 := by
  show StableHlo.after hostOps0 (W0 m ρ c) (Proc.devRef .tc main_arg3) = _
  host_stretch
set_option maxHeartbeats 8000000 in
theorem arg4_1 : W1 m ρ c (Proc.devRef .tc main_arg4) = 𝔞4 := by
  show StableHlo.after hostOps0 (W0 m ρ c) (Proc.devRef .tc main_arg4) = _
  host_stretch
set_option maxHeartbeats 8000000 in
theorem arg5_1 : W1 m ρ c (Proc.devRef .tc main_arg5) = 𝔞5 := by
  show StableHlo.after hostOps0 (W0 m ρ c) (Proc.devRef .tc main_arg5) = _
  host_stretch
set_option maxHeartbeats 8000000 in
theorem arg6_1 : W1 m ρ c (Proc.devRef .tc main_arg6) = 𝔞6 := by
  show StableHlo.after hostOps0 (W0 m ρ c) (Proc.devRef .tc main_arg6) = _
  host_stretch
set_option maxHeartbeats 8000000 in
theorem arg7_1 : W1 m ρ c (Proc.devRef .tc main_arg7) = 𝔞7 := by
  show StableHlo.after hostOps0 (W0 m ρ c) (Proc.devRef .tc main_arg7) = _
  host_stretch

/-! ## The first layer's transform region -/

theorem feat2 : W2 m ρ c (Proc.devRef .tc main_v29) = val_main_v11 (F := Ideal) 𝔞0 𝔞2 := by
  refine (W2_arr m ρ c 2).trans ((Cert.KernelIdeal.Product0.final (V1 m ρ) c).trans ?_)
  rw [show V1 m ρ c main_arg0 = 𝔞0 from arg0_1 m ρ c, show V1 m ρ c main_arg2 = 𝔞2 from arg2_1 m ρ c]
  exact (transform1 _ _).symm

theorem src2 : W2 m ρ c (Proc.devRef .tc main_v1) = val_main_v1 (F := Ideal) 𝔞1 :=
  (W2_of_ne m ρ c main_v1 (by decide)).trans (src1 m ρ c)
theorem dst2 : W2 m ρ c (Proc.devRef .tc main_v3) = val_main_v3 (F := Ideal) 𝔞1 :=
  (W2_of_ne m ρ c main_v3 (by decide)).trans (dst1 m ρ c)
theorem nrm2 : W2 m ρ c (Proc.devRef .tc main_v28) = val_main_v27 (F := Ideal) 𝔞1 :=
  (W2_of_ne m ρ c main_v28 (by decide)).trans (nrm1 m ρ c)
theorem deg2 : W2 m ρ c (Proc.devRef .tc main_v12) = val_main_v41 (F := Ideal) 𝔞1 :=
  (W2_of_ne m ρ c main_v12 (by decide)).trans (deg1 m ρ c)
theorem arg3_2 : W2 m ρ c (Proc.devRef .tc main_arg3) = 𝔞3 := (W2_of_ne m ρ c main_arg3 (by decide)).trans (arg3_1 m ρ c)
theorem arg4_2 : W2 m ρ c (Proc.devRef .tc main_arg4) = 𝔞4 := (W2_of_ne m ρ c main_arg4 (by decide)).trans (arg4_1 m ρ c)
theorem arg5_2 : W2 m ρ c (Proc.devRef .tc main_arg5) = 𝔞5 := (W2_of_ne m ρ c main_arg5 (by decide)).trans (arg5_1 m ρ c)
theorem arg6_2 : W2 m ρ c (Proc.devRef .tc main_arg6) = 𝔞6 := (W2_of_ne m ρ c main_arg6 (by decide)).trans (arg6_1 m ρ c)
theorem arg7_2 : W2 m ρ c (Proc.devRef .tc main_arg7) = 𝔞7 := (W2_of_ne m ρ c main_arg7 (by decide)).trans (arg7_1 m ρ c)

/-! ## The stretch before the first layer's closing region -/

theorem agg3 : W3 m ρ c (Proc.devRef .tc main_v41) = val_main_v39 (F := Ideal) 𝔞0 𝔞1 𝔞2 := by
  refine (first_agg (W2 m ρ c)).trans ?_
  rw [feat2 m ρ c, src2 m ρ c, dst2 m ρ c, nrm2 m ρ c]
  exact (ref_first _ _ _).symm

theorem bias3 : W3 m ρ c (Proc.devRef .tc main_v42) = shapeCast S1x256 𝔞3 shapeCasts_S256_S1x256 := by
  refine (first_bias (W2 m ρ c)).trans ?_
  rw [arg3_2 m ρ c]

theorem feat3 : W3 m ρ c (Proc.devRef .tc main_v29) = val_main_v11 (F := Ideal) 𝔞0 𝔞2 :=
  (first_keep_feat (W2 m ρ c)).trans (feat2 m ρ c)
theorem deg3 : W3 m ρ c (Proc.devRef .tc main_v12) = val_main_v41 (F := Ideal) 𝔞1 :=
  (first_keep_deg (W2 m ρ c)).trans (deg2 m ρ c)
theorem src3 : W3 m ρ c (Proc.devRef .tc main_v1) = val_main_v1 (F := Ideal) 𝔞1 := by
  refine Eq.trans ?_ (src2 m ρ c)
  show StableHlo.after hostOps1 (W2 m ρ c) (Proc.devRef .tc main_v1) = _
  host_stretch
theorem dst3 : W3 m ρ c (Proc.devRef .tc main_v3) = val_main_v3 (F := Ideal) 𝔞1 := by
  refine Eq.trans ?_ (dst2 m ρ c)
  show StableHlo.after hostOps1 (W2 m ρ c) (Proc.devRef .tc main_v3) = _
  host_stretch
theorem nrm3 : W3 m ρ c (Proc.devRef .tc main_v28) = val_main_v27 (F := Ideal) 𝔞1 := by
  refine Eq.trans ?_ (nrm2 m ρ c)
  show StableHlo.after hostOps1 (W2 m ρ c) (Proc.devRef .tc main_v28) = _
  host_stretch
theorem arg4_3 : W3 m ρ c (Proc.devRef .tc main_arg4) = 𝔞4 := by
  refine Eq.trans ?_ (arg4_2 m ρ c)
  show StableHlo.after hostOps1 (W2 m ρ c) (Proc.devRef .tc main_arg4) = _
  host_stretch
theorem arg5_3 : W3 m ρ c (Proc.devRef .tc main_arg5) = 𝔞5 := by
  refine Eq.trans ?_ (arg5_2 m ρ c)
  show StableHlo.after hostOps1 (W2 m ρ c) (Proc.devRef .tc main_arg5) = _
  host_stretch
theorem arg6_3 : W3 m ρ c (Proc.devRef .tc main_arg6) = 𝔞6 := by
  refine Eq.trans ?_ (arg6_2 m ρ c)
  show StableHlo.after hostOps1 (W2 m ρ c) (Proc.devRef .tc main_arg6) = _
  host_stretch
theorem arg7_3 : W3 m ρ c (Proc.devRef .tc main_arg7) = 𝔞7 := by
  refine Eq.trans ?_ (arg7_2 m ρ c)
  show StableHlo.after hostOps1 (W2 m ρ c) (Proc.devRef .tc main_arg7) = _
  host_stretch

/-! ## The first layer's closing region -/

theorem out4 : W4 m ρ c (Proc.devRef .tc main_v43) = val_main_v48 (F := Ideal) 𝔞0 𝔞1 𝔞2 𝔞3 := by
  refine (W4_arr m ρ c 4).trans ((Cert.KernelIdeal.Combine1.final (V3 m ρ) c).trans ?_)
  rw [show V3 m ρ c main_v41 = _ from agg3 m ρ c, show V3 m ρ c main_v29 = _ from feat3 m ρ c,
    show V3 m ρ c main_v12 = _ from deg3 m ρ c, show V3 m ρ c main_v42 = _ from bias3 m ρ c]
  exact (close1 _ _ _ _ _).symm

theorem src4 : W4 m ρ c (Proc.devRef .tc main_v1) = val_main_v1 (F := Ideal) 𝔞1 :=
  (W4_of_ne m ρ c main_v1 (by decide)).trans (src3 m ρ c)
theorem dst4 : W4 m ρ c (Proc.devRef .tc main_v3) = val_main_v3 (F := Ideal) 𝔞1 :=
  (W4_of_ne m ρ c main_v3 (by decide)).trans (dst3 m ρ c)
theorem nrm4 : W4 m ρ c (Proc.devRef .tc main_v28) = val_main_v27 (F := Ideal) 𝔞1 :=
  (W4_of_ne m ρ c main_v28 (by decide)).trans (nrm3 m ρ c)
/-- The inverse-degree column is an input of the closing region: it leaves it as it entered. -/
theorem deg4 : W4 m ρ c (Proc.devRef .tc main_v12) = val_main_v41 (F := Ideal) 𝔞1 :=
  (W4_arr m ρ c 2).trans ((((dat1 (V3 m ρ) c).arrAt_in 2 rfl _).trans (A_eq1 (V3 m ρ) c 2)).trans (deg3 m ρ c))
theorem arg4_4 : W4 m ρ c (Proc.devRef .tc main_arg4) = 𝔞4 := (W4_of_ne m ρ c main_arg4 (by decide)).trans (arg4_3 m ρ c)
theorem arg5_4 : W4 m ρ c (Proc.devRef .tc main_arg5) = 𝔞5 := (W4_of_ne m ρ c main_arg5 (by decide)).trans (arg5_3 m ρ c)
theorem arg6_4 : W4 m ρ c (Proc.devRef .tc main_arg6) = 𝔞6 := (W4_of_ne m ρ c main_arg6 (by decide)).trans (arg6_3 m ρ c)
theorem arg7_4 : W4 m ρ c (Proc.devRef .tc main_arg7) = 𝔞7 := (W4_of_ne m ρ c main_arg7 (by decide)).trans (arg7_3 m ρ c)

/-! ## The second layer's transform region -/

theorem feat5 : W5 m ρ c (Proc.devRef .tc main_v44) = val_main_v49 (F := Ideal) 𝔞0 𝔞1 𝔞2 𝔞3 𝔞4 := by
  refine (W5_arr m ρ c 2).trans ((Cert.KernelIdeal.Product2.final (V4 m ρ) c).trans ?_)
  rw [show V4 m ρ c main_v43 = _ from out4 m ρ c, show V4 m ρ c main_arg4 = 𝔞4 from arg4_4 m ρ c]
  exact (transform2 _ _ _ _ _).symm

theorem src5 : W5 m ρ c (Proc.devRef .tc main_v1) = val_main_v1 (F := Ideal) 𝔞1 :=
  (W5_of_ne m ρ c main_v1 (by decide)).trans (src4 m ρ c)
theorem dst5 : W5 m ρ c (Proc.devRef .tc main_v3) = val_main_v3 (F := Ideal) 𝔞1 :=
  (W5_of_ne m ρ c main_v3 (by decide)).trans (dst4 m ρ c)
theorem nrm5 : W5 m ρ c (Proc.devRef .tc main_v28) = val_main_v27 (F := Ideal) 𝔞1 :=
  (W5_of_ne m ρ c main_v28 (by decide)).trans (nrm4 m ρ c)
theorem deg5 : W5 m ρ c (Proc.devRef .tc main_v12) = val_main_v41 (F := Ideal) 𝔞1 :=
  (W5_of_ne m ρ c main_v12 (by decide)).trans (deg4 m ρ c)
theorem arg5_5 : W5 m ρ c (Proc.devRef .tc main_arg5) = 𝔞5 := (W5_of_ne m ρ c main_arg5 (by decide)).trans (arg5_4 m ρ c)
theorem arg6_5 : W5 m ρ c (Proc.devRef .tc main_arg6) = 𝔞6 := (W5_of_ne m ρ c main_arg6 (by decide)).trans (arg6_4 m ρ c)
theorem arg7_5 : W5 m ρ c (Proc.devRef .tc main_arg7) = 𝔞7 := (W5_of_ne m ρ c main_arg7 (by decide)).trans (arg7_4 m ρ c)

/-! ## The stretch before the second layer's closing region -/

theorem agg6 : W6 m ρ c (Proc.devRef .tc main_v56) = val_main_v77 (F := Ideal) 𝔞0 𝔞1 𝔞2 𝔞3 𝔞4 := by
  refine (second_agg (W5 m ρ c)).trans ?_
  rw [feat5 m ρ c, src5 m ρ c, dst5 m ρ c, nrm5 m ρ c]
  exact (ref_second _ _ _ _ _).symm

theorem bias6 : W6 m ρ c (Proc.devRef .tc main_v57) = shapeCast S1x256 𝔞5 shapeCasts_S256_S1x256 := by
  refine (second_bias (W5 m ρ c)).trans ?_
  rw [arg5_5 m ρ c]

theorem feat6 : W6 m ρ c (Proc.devRef .tc main_v44) = val_main_v49 (F := Ideal) 𝔞0 𝔞1 𝔞2 𝔞3 𝔞4 :=
  (second_keep_feat (W5 m ρ c)).trans (feat5 m ρ c)
theorem deg6 : W6 m ρ c (Proc.devRef .tc main_v12) = val_main_v41 (F := Ideal) 𝔞1 :=
  (second_keep_deg (W5 m ρ c)).trans (deg5 m ρ c)
theorem arg6_6 : W6 m ρ c (Proc.devRef .tc main_arg6) = 𝔞6 := by
  refine Eq.trans ?_ (arg6_5 m ρ c)
  show StableHlo.after hostOps3 (W5 m ρ c) (Proc.devRef .tc main_arg6) = _
  host_stretch
theorem arg7_6 : W6 m ρ c (Proc.devRef .tc main_arg7) = 𝔞7 := by
  refine Eq.trans ?_ (arg7_5 m ρ c)
  show StableHlo.after hostOps3 (W5 m ρ c) (Proc.devRef .tc main_arg7) = _
  host_stretch

/-! ## The second layer's closing region -/

theorem out7 : W7 m ρ c (Proc.devRef .tc main_v58) = val_main_v86 (F := Ideal) 𝔞0 𝔞1 𝔞2 𝔞3 𝔞4 𝔞5 := by
  refine (W7_arr m ρ c 4).trans ((Cert.KernelIdeal.Combine3.final (V6 m ρ) c).trans ?_)
  rw [show V6 m ρ c main_v56 = _ from agg6 m ρ c, show V6 m ρ c main_v44 = _ from feat6 m ρ c,
    show V6 m ρ c main_v12 = _ from deg6 m ρ c, show V6 m ρ c main_v57 = _ from bias6 m ρ c]
  exact (close2 _ _ _ _ _ _ _).symm

theorem arg6_7 : W7 m ρ c (Proc.devRef .tc main_arg6) = 𝔞6 := (W7_of_ne m ρ c main_arg6 (by decide)).trans (arg6_6 m ρ c)
theorem arg7_7 : W7 m ρ c (Proc.devRef .tc main_arg7) = 𝔞7 := (W7_of_ne m ρ c main_arg7 (by decide)).trans (arg7_6 m ρ c)

/-! ## The stretch before the read-out, and the read-out region -/

theorem bias8 : W8 m ρ c (Proc.devRef .tc main_v59) = shapeCast S1x2 𝔞7 shapeCasts_S2_S1x2 := by
  refine (last_bias (W7 m ρ c)).trans ?_
  rw [arg7_7 m ρ c]
theorem out8 : W8 m ρ c (Proc.devRef .tc main_v58) = val_main_v86 (F := Ideal) 𝔞0 𝔞1 𝔞2 𝔞3 𝔞4 𝔞5 :=
  (last_keep_feat (W7 m ρ c)).trans (out7 m ρ c)
theorem arg6_8 : W8 m ρ c (Proc.devRef .tc main_arg6) = 𝔞6 :=
  (last_keep_weight (W7 m ρ c)).trans (arg6_7 m ρ c)

/-- THE RESULT ARRAY after the last region is the reference's last stage of the launch arguments. -/
theorem result : W9 m ρ c (Proc.devRef .tc main_v60) = val_main_v90 (F := Ideal) 𝔞0 𝔞1 𝔞2 𝔞3 𝔞4 𝔞5 𝔞6 𝔞7 := by
  refine (W9_arr m ρ c 3).trans ((Cert.KernelIdeal.Affine4.final (V8 m ρ) c).trans ?_)
  rw [show V8 m ρ c main_v58 = _ from out8 m ρ c, show V8 m ρ c main_arg6 = 𝔞6 from arg6_8 m ρ c,
    show V8 m ρ c main_v59 = _ from bias8 m ρ c]
  exact (readout _ _ _ _ _ _ _ _ _).symm

end Cert.KernelIdeal.Boundary

end
-- ==== Proof.lean ====
/-
  A two-layer graph convolution with a linear read-out: the kernel program against its plain reference.

  Both programs compute, from the edge list, each node's inverse square-root degree and each edge's normalisation; then,
  twice, transform the node features by a weight array, aggregate the transformed rows over the edges, add the node's
  own row scaled by its inverse degree and the bias, and rectify; and finally apply a linear read-out. The kernel
  program runs the three products and the two closing steps as tiled regions over row blocks of 1000 nodes, the
  reference as whole-array operations. Over the extended reals a change of float format is the identity and a product
  accumulated into zero is the exact sum, so each region leaves one whole-array function of its inputs (Product0,
  Product2, Combine1, Combine3, Affine4), the reference's stages are the same functions (RefDense, RefClose), the
  aggregation between them is shared (Aggregate), and the kernel's result array is the reference's last stage of the
  same arguments (Boundary). No algebraic law beyond this identification is used, so finiteness of the inputs is never
  opened. The three frames are the programs' runs with the results dropped; the idealization rewrote nothing.
-/
import proofs.«106007_j74491912782367_1_alg».proof.Defs
import proofs.«106007_j74491912782367_1_alg».proof.Proof.Gen.Kernel
import proofs.«106007_j74491912782367_1_alg».proof.Proof.Gen.Kernel.Frame
import proofs.«106007_j74491912782367_1_alg».proof.Proof.Gen.KernelIdeal
import proofs.«106007_j74491912782367_1_alg».proof.Proof.Gen.KernelIdeal.Frame
import proofs.«106007_j74491912782367_1_alg».proof.Proof.Gen.ReferenceIdeal
import proofs.«106007_j74491912782367_1_alg».proof.Proof.Gen.Pre_finite_inputs
import proofs.«106007_j74491912782367_1_alg».proof.Proof.RefImports
import proofs.«106007_j74491912782367_1_alg».proof.Proof.RunMain
import proofs.«106007_j74491912782367_1_alg».proof.Proof.Boundary
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's last stage of the (agreeing) arguments. -/
theorem algebraic : Cert.algebraic_KernelIdeal_ReferenceIdeal := by
  intro m ρ m' ρ' _ hagree
  refine ⟨fun c => Cert.ReferenceIdeal.Read.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Boundary.result m ρ c), (h c).2⟩)
      (Cert.KernelIdeal.RunMain.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v90_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
